-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1 : Shape := ⟨2, ![8192, 1]⟩
abbrev S11008x4096 : Shape := ⟨2, ![11008, 4096]⟩
abbrev S11008x32 : Shape := ⟨2, ![11008, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S11008x4096 : S_.BroadcastsInDim S11008x4096 (![] : Fin 0 → Fin S11008x4096.rank)
  reducesTo_S11008x4096_S_d0_1 : S11008x4096.ReducesTo [0, 1] S_
  bcast_S_S11008x32 : S_.BroadcastsInDim S11008x32 (![] : Fin 0 → Fin S11008x32.rank)
  reducesTo_S11008x32_S_d0_1 : S11008x32.ReducesTo [0, 1] S_

variable [Facts]

def fn_part1 {F : FTy → Type} [FloatOps F] (main_arg4 : FVec F S11008x32 .f32) (main_v13 : IVec S_ 1) (main_v16 : IVec S11008x32 1) : IVec S_ 1 :=
  let main_c_5 : IVec S_ 1 := constantI S_ 1 1#1
  let main_v17 : IVec S_ 1 := (fun x v => Host.reduce IntOp.andi x v reducesTo_S11008x32_S_d0_1 h_S_) main_v16 main_c_5
  let main_v18 : IVec S_ 1 := andi main_v13 main_v17
  let main_v19 : FVec F S11008x32 .f32 := Host.absf main_arg4
  let main_cst_6 : FVec F S_ .f32 := constant S_ .f32 0x7F800000#32
  let main_v20 : FVec F S11008x32 .f32 := broadcastInDim S11008x32 ![] bcast_S_S11008x32 main_cst_6
  let main_v21 : IVec S11008x32 1 := cmpf .olt main_v19 main_v20
  let main_c_7 : IVec S_ 1 := constantI S_ 1 1#1
  let main_v22 : IVec S_ 1 := (fun x v => Host.reduce IntOp.andi x v reducesTo_S11008x32_S_d0_1 h_S_) main_v21 main_c_7
  let main_v23 : IVec S_ 1 := andi main_v18 main_v22
  main_v23

def fn {F : FTy → Type} [FloatOps F] (main_arg0 : FVec F S8192x4096 .f32) (main_arg1 : FVec F S8192x1 .f32) (main_arg2 : FVec F S11008x4096 .f32) (main_arg3 : FVec F S11008x32 .f32) (main_arg4 : FVec F S11008x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S11008x32 .f32 := Host.absf main_arg3
  let main_cst_4 : FVec F S_ .f32 := constant S_ .f32 0x7F800000#32
  let main_v15 : FVec F S11008x32 .f32 := broadcastInDim S11008x32 ![] bcast_S_S11008x32 main_cst_4
  let main_v16 : IVec S11008x32 1 := cmpf .olt main_v14 main_v15
  fn_part1 (F := F) main_arg4 main_v13 main_v16
-- ==== Kernel.lean ====
abbrev S8192x4096 : Shape := ⟨2, ![8192, 4096]⟩
abbrev S8192x1 : Shape := ⟨2, ![8192, 1]⟩
abbrev S11008x4096 : Shape := ⟨2, ![11008, 4096]⟩
abbrev S11008x32 : Shape := ⟨2, ![11008, 32]⟩
abbrev S_ : Shape := ⟨0, ![]⟩
abbrev S12288x4096 : Shape := ⟨2, ![12288, 4096]⟩
abbrev S12288x32 : Shape := ⟨2, ![12288, 32]⟩
abbrev S8192x12288 : Shape := ⟨2, ![8192, 12288]⟩
abbrev S2048x512 : Shape := ⟨2, ![2048, 512]⟩
abbrev S2048x1 : Shape := ⟨2, ![2048, 1]⟩
abbrev S2048x32 : Shape := ⟨2, ![2048, 32]⟩
abbrev S2048x2048 : Shape := ⟨2, ![2048, 2048]⟩
abbrev S2048x4 : Shape := ⟨2, ![2048, 4]⟩
abbrev S2048x4x128 : Shape := ⟨3, ![2048, 4, 128]⟩
abbrev S2048x4x1 : Shape := ⟨3, ![2048, 4, 1]⟩
abbrev S512x2048 : Shape := ⟨2, ![512, 2048]⟩
abbrev S8192x11008 : Shape := ⟨2, ![8192, 11008]⟩

abbrev nBuf : Space → Nat
  | .hbm => 16
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x1, .f32⟩
  | .hbm, ⟨2, _⟩ => ⟨S11008x4096, .f32⟩
  | .hbm, ⟨3, _⟩ => ⟨S11008x32, .f32⟩
  | .hbm, ⟨4, _⟩ => ⟨S11008x32, .f32⟩
  | .hbm, ⟨5, _⟩ => ⟨S_, .i32⟩
  | .hbm, ⟨6, _⟩ => ⟨S_, .f32⟩
  | .hbm, ⟨7, _⟩ => ⟨S12288x4096, .f32⟩
  | .hbm, ⟨8, _⟩ => ⟨S_, .i32⟩
  | .hbm, ⟨9, _⟩ => ⟨S_, .f32⟩
  | .hbm, ⟨10, _⟩ => ⟨S12288x32, .f32⟩
  | .hbm, ⟨11, _⟩ => ⟨S_, .i32⟩
  | .hbm, ⟨12, _⟩ => ⟨S_, .f32⟩
  | .hbm, ⟨13, _⟩ => ⟨S12288x32, .f32⟩
  | .hbm, ⟨14, _⟩ => ⟨S8192x12288, .f32⟩
  | .hbm, ⟨15, _⟩ => ⟨S8192x11008, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S2048x512, .f32⟩
  | .local _ .vmem, ⟨5, _⟩ => ⟨S2048x512, .f32⟩
  | .local _ .vmem, ⟨6, _⟩ => ⟨S2048x32, .f32⟩
  | .local _ .vmem, ⟨7, _⟩ => ⟨S2048x32, .f32⟩
  | .local _ .vmem, ⟨8, _⟩ => ⟨S2048x32, .f32⟩
  | .local _ .vmem, ⟨9, _⟩ => ⟨S2048x32, .f32⟩
  | .local _ .vmem, ⟨10, _⟩ => ⟨S2048x2048, .f32⟩
  | .local _ .vmem, ⟨11, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 6, 8], ![false, false, false]⟩

def k0_mult1 (i : grid0.Coords) : BitVec 32 :=
  let arg2 : BitVec 32 := BitVec.ofNat 32 (i 2).val
  let c4_i32 : BitVec 32 := 4#32
  let v3 : BitVec 32 := Scalar.muli arg2 c4_i32
  v3
def k0_off1 (i : grid0.Coords) : Fin 2 → Nat :=
  let c0 : Index := 0#32
  let arg2 : BitVec 32 := BitVec.ofNat 32 (i 2).val
  let c4_i32 : BitVec 32 := 4#32
  let v3 : BitVec 32 := Scalar.muli arg2 c4_i32
  let v4 : BitVec 32 := v3
  let v5 : Index := Scalar.indexCast v4
  ![0, v5.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  pads_S11008x4096_S12288x4096_012800_000 : S11008x4096.Pads (![0, 0] : Fin 2 → Nat) ![1280, 0] ![0, 0] S12288x4096
  h_S_ : 0 < S_.numel
  pads_S11008x32_S12288x32_012800_000 : S11008x32.Pads (![0, 0] : Fin 2 → Nat) ![1280, 0] ![0, 0] S12288x32
  inb_S2048x2048_S2048x2048_0_0 : ∀ a, (![0, 0] : Fin 2 → Nat) a + S2048x2048.size a ≤ S2048x2048.size a
  h_S2048x2048 : 0 < S2048x2048.numel
  h_S2048x4 : 0 < S2048x4.numel
  shapeCasts_S2048x4_S2048x4 : S2048x4.ShapeCasts S2048x4
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S2048x512_S2048x4x128 : S2048x512.ShapeCasts S2048x4x128
  shapeCasts_S2048x4_S2048x4x1 : S2048x4.ShapeCasts S2048x4x1
  broadcasts_S2048x4x1_S2048x4x128 : S2048x4x1.Broadcasts S2048x4x128
  shapeCasts_S2048x4x128_S2048x512 : S2048x4x128.ShapeCasts S2048x512
  inb_S2048x1_S2048x1_0_0 : ∀ a, (![0, 0] : Fin 2 → Nat) a + S2048x1.size a ≤ S2048x1.size a
  h_S2048x1 : 0 < S2048x1.numel
  broadcasts_S2048x1_S2048x512 : S2048x1.Broadcasts S2048x512
  bitsLt_bf16_f32 : FTy.bits .bf16 < FTy.bits .f32
  transposes_S2048x512_p1_0_S512x2048 : S2048x512.Transposes [1, 0] S512x2048
  shapeCasts_S2048x2048_S2048x2048 : S2048x2048.ShapeCasts S2048x2048
  slices_S8192x12288_S8192x11008_0_0 : S8192x12288.Slices ![0, 0] S8192x11008
  dot_S2048x512_S512x2048_S2048x2048_1_0_0_1_n_n_wf : DotDims.WF S2048x512 S512x2048 S2048x2048 [1] [0] [0] [1] [] []
  hrank0 : 0 < grid0.rank
  k0_mult1_dvd : ∀ i : grid0.Coords, 4 ∣ (k0_mult1 i).toNat
  k0_off1_inb : ∀ i : grid0.Coords, ∀ a, (k0_off1 i) a + S2048x4.size a ≤ S2048x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S12288x4096.size a
  hwx0_2 : ∀ i : grid0.Coords, EltTy.bits .f32 = 32 ∨ (Rect.block (s := S12288x4096) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S12288x32.size a
  hwx0_3 : ∀ i : grid0.Coords, EltTy.bits .f32 = 32 ∨ (Rect.block (s := S12288x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x32.size a ≤ S12288x32.size a
  hwx0_4 : ∀ i : grid0.Coords, EltTy.bits .f32 = 32 ∨ (Rect.block (s := S12288x32) S2048x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S8192x12288.size a
  hwx0_5 : ∀ i : grid0.Coords, EltTy.bits .f32 = 32 ∨ (Rect.block (s := S8192x12288) S2048x2048.size (cc0_transform_5 i) (hinb0_5 i)).WholeWords (EltTy.packing .f32)

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x1 : Shape := ⟨2, ![8192, 1]⟩
abbrev S11008x4096 : Shape := ⟨2, ![11008, 4096]⟩
abbrev S11008x32 : Shape := ⟨2, ![11008, 32]⟩
abbrev S11008x32x128 : Shape := ⟨3, ![11008, 32, 128]⟩
abbrev S11008x32x1 : Shape := ⟨3, ![11008, 32, 1]⟩
abbrev S8192x11008 : Shape := ⟨2, ![8192, 11008]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1, .f32⟩
  | .hbm, ⟨2, _⟩ => ⟨S11008x4096, .f32⟩
  | .hbm, ⟨3, _⟩ => ⟨S11008x32, .f32⟩
  | .hbm, ⟨4, _⟩ => ⟨S11008x32, .f32⟩
  | .hbm, ⟨5, _⟩ => ⟨S8192x4096, .f32⟩
  | .hbm, ⟨6, _⟩ => ⟨S8192x4096, .f32⟩
  | .hbm, ⟨7, _⟩ => ⟨S11008x32x128, .f32⟩
  | .hbm, ⟨8, _⟩ => ⟨S11008x32x1, .f32⟩
  | .hbm, ⟨9, _⟩ => ⟨S11008x32x128, .f32⟩
  | .hbm, ⟨10, _⟩ => ⟨S11008x32x128, .f32⟩
  | .hbm, ⟨11, _⟩ => ⟨S11008x32x1, .f32⟩
  | .hbm, ⟨12, _⟩ => ⟨S11008x32x128, .f32⟩
  | .hbm, ⟨13, _⟩ => ⟨S11008x32x128, .f32⟩
  | .hbm, ⟨14, _⟩ => ⟨S11008x4096, .f32⟩
  | .hbm, ⟨15, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S8192x1_S8192x4096_0_1 : S8192x1.BroadcastsInDim S8192x4096 (![0, 1] : Fin 2 → Fin S8192x4096.rank)
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.Pieces.lean ====
/-
  What one run of the kernel body leaves in the output tile, as a value.

  At a grid point the body loads the activation block, its row scales, the weight block, and the four columns of the
  weight scales and offsets that belong to this block of 512 features (four quantization groups); it dequantizes both
  operands, multiplies the matrices, and adds the product into the output tile. At the first feature block it first
  stores a tile of zeros and reads it back, so the tile ends at `0 + product`; at every later block the tile ends at
  `previous + product`. Both are the body's one arithmetic term `k0_pay2` applied to the loaded blocks.
-/
import proofs.«132752_j76407468195936_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The four columns of a 32-column scale (or offset) block that the body loads at grid point `i`: the columns of the
    four quantization groups of the point's feature block. -/
abbrev groupCols (i : grid0.Coords) (x : Vec F S2048x32 .f32) : Vec F S2048x4 .f32 :=
  View.ld x (Rect.unit (s := S2048x32) (k0_off1 i) S2048x4.size (k0_off1_inb i))

/-- At a later feature block the tile ends at the body's term of the loaded blocks and the tile's previous contents. -/
theorem out_B (c : Dev nD) (i : grid0.Coords) (arg3 : Memref sig .tc .vmem S2048x512 .f32) (harg3 : arg3.IsWhole) (arg4 : Memref sig .tc .vmem S2048x1 .f32) (harg4 : arg4.IsWhole) (arg5 : Memref sig .tc .vmem S2048x512 .f32) (harg5 : arg5.IsWhole) (arg6 : Memref sig .tc .vmem S2048x32 .f32) (harg6 : arg6.IsWhole) (arg7 : Memref sig .tc .vmem S2048x32 .f32) (harg7 : arg7.IsWhole) (arg8 : Memref sig .tc .vmem S2048x2048 .f32) (harg8 : arg8.IsWhole) (hc0 : ¬cond0_0 i)
    (x0 : Vec F S2048x512 .f32) (x1 : Vec F S2048x1 .f32) (x2 : Vec F S2048x512 .f32) (x3 : Vec F S2048x32 .f32) (x4 : Vec F S2048x32 .f32) (xo5 : Vec F S2048x2048 .f32) :
    out0_B_5 c i arg3 harg3 arg4 harg4 arg5 harg5 arg6 harg6 arg7 harg7 arg8 harg8 hc0 x0 x1 x2 x3 x4 xo5 = k0_pay2 (groupCols i x3) (groupCols i x4) x2 x0 x1 xo5 := by
  unfold out0_B_5
  rw [View.read_writes_eq_canon _ _ _ (cover0_B_5 c i arg3 harg3 arg4 harg4 arg5 harg5 arg6 harg6 arg7 harg7 arg8 harg8 hc0 x0 x1 x2 x3 x4 xo5)]
  unfold kernelRun0_B
  dsimp only
  sl_unfold_words
  rw [View.canon_unit_zero hz]
  simp only [View.readAt_eq_ld, harg3.read_unread, harg4.read_unread, harg5.read_unread, harg6.read_unread, harg7.read_unread, harg8.read_unread,
    View.ld_unit_zero (S := S2048x512) hz, View.ld_unit_zero (S := S2048x1) hz, View.ld_unit_zero (S := S2048x2048) hz]
  rfl

/-- At the first feature block the tile ends at the body's term of the loaded blocks and the zero tile it has just stored. -/
theorem out_A (c : Dev nD) (i : grid0.Coords) (arg3 : Memref sig .tc .vmem S2048x512 .f32) (harg3 : arg3.IsWhole) (arg4 : Memref sig .tc .vmem S2048x1 .f32) (harg4 : arg4.IsWhole) (arg5 : Memref sig .tc .vmem S2048x512 .f32) (harg5 : arg5.IsWhole) (arg6 : Memref sig .tc .vmem S2048x32 .f32) (harg6 : arg6.IsWhole) (arg7 : Memref sig .tc .vmem S2048x32 .f32) (harg7 : arg7.IsWhole) (arg8 : Memref sig .tc .vmem S2048x2048 .f32) (harg8 : arg8.IsWhole) (hc0 : cond0_0 i)
    (x0 : Vec F S2048x512 .f32) (x1 : Vec F S2048x1 .f32) (x2 : Vec F S2048x512 .f32) (x3 : Vec F S2048x32 .f32) (x4 : Vec F S2048x32 .f32) :
    out0_A_5 c i arg3 harg3 arg4 harg4 arg5 harg5 arg6 harg6 arg7 harg7 arg8 harg8 hc0 x0 x1 x2 x3 x4 = k0_pay2 (groupCols i x3) (groupCols i x4) x2 x0 x1 (k0_pay1 (F := F)) := by
  unfold out0_A_5
  rw [View.read_writes_eq_canon _ _ _ (cover0_A_5 c i arg3 harg3 arg4 harg4 arg5 harg5 arg6 harg6 arg7 harg7 arg8 harg8 hc0 x0 x1 x2 x3 x4)]
  unfold kernelRun0_A
  dsimp only
  sl_unfold_words
  rw [View.canon_cons_unit_zero (S := S2048x2048) hz]
  simp only [View.readAt_eq_ld, harg3.read_unread, harg4.read_unread, harg5.read_unread, harg6.read_unread, harg7.read_unread,
    View.ld_unit_zero (S := S2048x512) hz, View.ld_unit_zero (S := S2048x1) hz, View.readCov_unit_zero (S := S2048x2048) _ hz]
  rfl

end Cert.KernelIdeal.Pieces

end
-- ==== Proof.Spec.lean ====
/-
  The mathematics both programs compute, stated once over literal shapes and the extended reals.

  A token row `r` of the activations is dequantized by its own scale, `x r i · sx r`; a weight row `o` is
  dequantized group by group, 128 consecutive features sharing one offset and one scale:
  `(w o i − off o (i / 128)) · scale o (i / 128)`. The result at `(r, o)` is the sum over the 4096 features of the
  product of the two. The kernel walks the features in eight blocks of 512 and adds each block's partial sum into
  the output tile; since addition of extended reals is commutative and associative, the eight partial sums add up
  to the one sum over all features (`sum_blocks`), with no appeal to finiteness.
-/
import Idealize.ShloMosaic.PureOps.Ideal
import Idealize.ShloMosaic.Lib.ValueIdx
import Mathlib.Algebra.BigOperators.Fin

noncomputable section

namespace Cert.QDot

open Idealize.ShloMosaic Idealize.ShloMosaic.ValueIdx

/-- The quantization group of feature `i`: 128 consecutive features form one group. -/
def grp (i : Fin 4096) : Fin 32 := ⟨i.val / 128, by have := i.isLt; omega⟩

/-- The product of the dequantized activation `(r, i)` and the dequantized weight `(o, i)`, for a weight of `R` rows. -/
def term {R : Nat} (x : FVec Ideal ⟨2, ![8192, 4096]⟩ .f32) (sx : FVec Ideal ⟨2, ![8192, 1]⟩ .f32)
    (w : FVec Ideal ⟨2, ![R, 4096]⟩ .f32) (ws wo : FVec Ideal ⟨2, ![R, 32]⟩ .f32)
    (r : Fin 8192) (o : Fin R) (i : Fin 4096) : EReal :=
  (x (ix2 r i) * sx (ix2 r (0 : Fin 1))) * ((w (ix2 o i) - wo (ix2 o (grp i))) * ws (ix2 o (grp i)))

/-- The dequantized matrix product at `(r, o)`: the sum of the products over all 4096 features. -/
def dot {R : Nat} (x : FVec Ideal ⟨2, ![8192, 4096]⟩ .f32) (sx : FVec Ideal ⟨2, ![8192, 1]⟩ .f32)
    (w : FVec Ideal ⟨2, ![R, 4096]⟩ .f32) (ws wo : FVec Ideal ⟨2, ![R, 32]⟩ .f32)
    (r : Fin 8192) (o : Fin R) : EReal :=
  ∑ i : Fin 4096, term x sx w ws wo r o i

/-- Feature `k` of block `s` (eight blocks of 512 features; `s` is read modulo 8 so that the index is always in range). -/
def feat (s : Nat) (k : Fin 512) : Fin 4096 := ⟨512 * (s % 8) + k.val, by have := k.isLt; omega⟩

/-- A sum over the 4096 features is the sum, over the eight blocks, of the sums over each block's 512 features. -/
theorem sum_blocks {M : Type*} [AddCommMonoid M] (f : Fin 4096 → M) :
    ∑ s ∈ Finset.range 8, ∑ k : Fin 512, f (feat s k) = ∑ i : Fin 4096, f i := by
  have e : ∑ i : Fin 4096, f i = ∑ p : Fin 8 × Fin 512, f (feat p.1.val p.2) := by
    rw [← Equiv.sum_comp (finProdFinEquiv (m := 8) (n := 512)) f]
    refine Finset.sum_congr rfl fun p _ => congrArg f (Fin.ext ?_)
    show p.2.val + 512 * p.1.val = 512 * (p.1.val % 8) + p.2.val
    have := p.1.isLt
    omega
  rw [e, Fintype.sum_prod_type, ← Fin.sum_univ_eq_sum_range (fun s => ∑ k : Fin 512, f (feat s k)) 8]

end Cert.QDot

end
-- ==== Proof.Blocks.lean ====
/-
  Where each block of the kernel's operands sits in its whole array.

  The grid has 4 × 6 × 8 points; point `t` works on token-row tile `t / 48`, weight-row tile `(t / 8) % 6` and
  feature block `t % 8`. Entry `(p, k)` of the activation block at `t` is entry `(2048 · (t / 48) + p, 512 · (t % 8) + k)`
  of the activations, and likewise for the row scales, the (zero-padded) weight and its scales and offsets; of the
  32 scale columns the body reads the four that belong to the feature block, columns `4 · (t % 8) … 4 · (t % 8) + 3`.
-/
import proofs.«132752_j76407468195936_1_alg».proof.Proof.Gen.KernelIdeal.Frame
import proofs.«132752_j76407468195936_1_alg».proof.Proof.Pieces
import proofs.«132752_j76407468195936_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-! ## The arrays the region finds, and the blocks of a point, at their literal types -/

/-- The activations, their row scales, and the zero-padded weight, weight scales and weight offsets. -/
abbrev X (c : Dev nD) : FVec Ideal S8192x4096 .f32 := V m c main_arg0
abbrev SX (c : Dev nD) : FVec Ideal S8192x1 .f32 := V m c main_arg1
abbrev WP (c : Dev nD) : FVec Ideal S12288x4096 .f32 := V m c main_v0
abbrev WS (c : Dev nD) : FVec Ideal S12288x32 .f32 := V m c main_v1
abbrev WO (c : Dev nD) : FVec Ideal S12288x32 .f32 := V m c main_v2

abbrev xblk (c : Dev nD) (t : Fin cfg0.N) : Vec Ideal S2048x512 .f32 := iblk m c 0 t
abbrev sxblk (c : Dev nD) (t : Fin cfg0.N) : Vec Ideal S2048x1 .f32 := iblk m c 1 t
abbrev wblk (c : Dev nD) (t : Fin cfg0.N) : Vec Ideal S2048x512 .f32 := iblk m c 2 t
abbrev wsblk (c : Dev nD) (t : Fin cfg0.N) : Vec Ideal S2048x32 .f32 := iblk m c 3 t
abbrev woblk (c : Dev nD) (t : Fin cfg0.N) : Vec Ideal S2048x32 .f32 := iblk m c 4 t

/-- The token row of the activations under row `p` of the tile of point `n`; the weight row under row `q` of its tile. -/
def rowOf (n : Nat) (p : Fin 2048) : Fin 8192 := ⟨2048 * ((n / 48) % 4) + p.val, by have := p.isLt; omega⟩
def colOf (n : Nat) (q : Fin 2048) : Fin 12288 := ⟨2048 * ((n / 8) % 6) + q.val, by have := q.isLt; omega⟩
/-- The scale column of group `g` of the feature block of point `n`. -/
def grpOf (n : Nat) (g : Fin 4) : Fin 32 := ⟨4 * (n % 8) + g.val, by have := g.isLt; omega⟩

/-- The printed index maps in closed form, decided over the grid. -/
theorem idx_facts : ∀ t : Fin cfg0.N,
    win0_0.index t (0 : Fin 2) = (t.val / 48) % 4 ∧ win0_0.index t (1 : Fin 2) = t.val % 8
    ∧ win0_1.index t (0 : Fin 2) = (t.val / 48) % 4 ∧ win0_1.index t (1 : Fin 2) = 0
    ∧ win0_2.index t (0 : Fin 2) = (t.val / 8) % 6 ∧ win0_2.index t (1 : Fin 2) = t.val % 8
    ∧ win0_3.index t (0 : Fin 2) = (t.val / 8) % 6 ∧ win0_3.index t (1 : Fin 2) = 0
    ∧ win0_4.index t (0 : Fin 2) = (t.val / 8) % 6 ∧ win0_4.index t (1 : Fin 2) = 0
    ∧ win0_5.index t (0 : Fin 2) = (t.val / 48) % 4 ∧ win0_5.index t (1 : Fin 2) = (t.val / 8) % 6
    ∧ ((grid0.coords t) 2).val = t.val % 8 :=
  (by decide +kernel : ∀ t : Fin grid0.N, _)

/-! ## Each block at an entry -/

theorem xblk_apply (c : Dev nD) (t : Fin cfg0.N) (p : Fin 2048) (k : Fin 512) :
    xblk m c t (ix2 p k) = X m c (ix2 (rowOf t.val p) (QDot.feat t.val k)) := by
  obtain ⟨e0, e1, -⟩ := idx_facts t
  show V m c main_arg0 (((cfg0.win 0).blk t).view.emb (ix2 p k)) = V m c main_arg0 _
  congr 1
  funext a; apply Fin.ext
  match a with
  | ⟨0, _⟩ => show win0_0.index t (0 : Fin 2) * 2048 + 1 * p.val = 2048 * ((t.val / 48) % 4) + p.val; omega
  | ⟨1, _⟩ => show win0_0.index t (1 : Fin 2) * 512 + 1 * k.val = 512 * (t.val % 8) + k.val; omega

theorem sxblk_apply (c : Dev nD) (t : Fin cfg0.N) (p : Fin 2048) (z : Fin 1) :
    sxblk m c t (ix2 p z) = SX m c (ix2 (rowOf t.val p) (0 : Fin 1)) := by
  obtain ⟨-, -, e0, e1, -⟩ := idx_facts t
  show V m c main_arg1 (((cfg0.win 1).blk t).view.emb (ix2 p z)) = V m c main_arg1 _
  congr 1
  funext a; apply Fin.ext
  match a with
  | ⟨0, _⟩ => show win0_1.index t (0 : Fin 2) * 2048 + 1 * p.val = 2048 * ((t.val / 48) % 4) + p.val; omega
  | ⟨1, _⟩ => show win0_1.index t (1 : Fin 2) * 1 + 1 * z.val = 0; have := z.isLt; omega

theorem wblk_apply (c : Dev nD) (t : Fin cfg0.N) (q : Fin 2048) (k : Fin 512) :
    wblk m c t (ix2 q k) = WP m c (ix2 (colOf t.val q) (QDot.feat t.val k)) := by
  obtain ⟨-, -, -, -, e0, e1, -⟩ := idx_facts t
  show V m c main_v0 (((cfg0.win 2).blk t).view.emb (ix2 q k)) = V m c main_v0 _
  congr 1
  funext a; apply Fin.ext
  match a with
  | ⟨0, _⟩ => show win0_2.index t (0 : Fin 2) * 2048 + 1 * q.val = 2048 * ((t.val / 8) % 6) + q.val; omega
  | ⟨1, _⟩ => show win0_2.index t (1 : Fin 2) * 512 + 1 * k.val = 512 * (t.val % 8) + k.val; omega

theorem wsblk_apply (c : Dev nD) (t : Fin cfg0.N) (q : Fin 2048) (g : Fin 32) :
    wsblk m c t (ix2 q g) = WS m c (ix2 (colOf t.val q) g) := by
  obtain ⟨-, -, -, -, -, -, e0, e1, -⟩ := idx_facts t
  show V m c main_v1 (((cfg0.win 3).blk t).view.emb (ix2 q g)) = V m c main_v1 _
  congr 1
  funext a; apply Fin.ext
  match a with
  | ⟨0, _⟩ => show win0_3.index t (0 : Fin 2) * 2048 + 1 * q.val = 2048 * ((t.val / 8) % 6) + q.val; omega
  | ⟨1, _⟩ => show win0_3.index t (1 : Fin 2) * 32 + 1 * g.val = g.val; omega

theorem woblk_apply (c : Dev nD) (t : Fin cfg0.N) (q : Fin 2048) (g : Fin 32) :
    woblk m c t (ix2 q g) = WO m c (ix2 (colOf t.val q) g) := by
  obtain ⟨-, -, -, -, -, -, -, -, e0, e1, -⟩ := idx_facts t
  show V m c main_v2 (((cfg0.win 4).blk t).view.emb (ix2 q g)) = V m c main_v2 _
  congr 1
  funext a; apply Fin.ext
  match a with
  | ⟨0, _⟩ => show win0_4.index t (0 : Fin 2) * 2048 + 1 * q.val = 2048 * ((t.val / 8) % 6) + q.val; omega
  | ⟨1, _⟩ => show win0_4.index t (1 : Fin 2) * 32 + 1 * g.val = g.val; omega

/-- The four columns the body reads of a 32-column block, at an entry: column `g` of the four is column
    `4 · (t % 8) + g` of the block. -/
theorem groupCols_apply (t : Fin cfg0.N) (x : Vec Ideal S2048x32 .f32) (q : Fin 2048) (g : Fin 4) :
    Pieces.groupCols (grid0.coords t) x (ix2 q g) = x (ix2 q (grpOf t.val g)) := by
  have e2 : ((grid0.coords t) 2).val = t.val % 8 := (idx_facts t).2.2.2.2.2.2.2.2.2.2.2.2
  show x ((Rect.unit (s := S2048x32) (k0_off1 (grid0.coords t)) S2048x4.size (k0_off1_inb (grid0.coords t))).idx (ix2 q g)) = _
  congr 1
  funext a; apply Fin.ext
  match a with
  | ⟨0, _⟩ => show k0_off1 (grid0.coords t) (0 : Fin 2) + 1 * q.val = q.val; rw [k0_off1_eq]; show 0 + 1 * q.val = q.val; omega
  | ⟨1, _⟩ => show k0_off1 (grid0.coords t) (1 : Fin 2) + 1 * g.val = 4 * (t.val % 8) + g.val; rw [k0_off1_eq]; show 4 * ((grid0.coords t) 2).val + 1 * g.val = _; rw [e2]; omega

end Cert.KernelIdeal.Blocks

end
-- ==== Proof.PayloadAt.lean ====
/-
  The body's arithmetic, read at one entry of the output tile, over the extended reals.

  Entry `(p, q)` of the tile after the body is the tile's previous entry plus the sum, over the 512 features `k` of
  the block, of the dequantized activation `x p k · sx p` times the dequantized weight
  `(w q k − off q (k / 128)) · scale q (k / 128)`. The reshapes to `[2048, 4, 128]` and back only regroup the 512
  features into four groups of 128; the broadcasts repeat a group's scale and offset over its 128 features; the
  changes of float format are the identity on the extended reals; the matrix product into a zero accumulator is the
  plain sum of products, and the transposed weight block is read at the swapped index.
-/
import proofs.«132752_j76407468195936_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx

/-- The quantization group, among the block's four, of feature `k` of a block of 512. -/
def grp4 (k : Fin 512) : Fin 4 := ⟨k.val / 128, by have := k.isLt; omega⟩
/-- The place of feature `k` inside its group of 128. -/
def lane (k : Fin 512) : Fin 128 := ⟨k.val % 128, Nat.mod_lt _ (by decide)⟩

/-! ## The layout operations, each at an index -/

/-- A `[2048, 4]` block seen as `[2048, 4, 1]`: entry `(q, g, 0)` is entry `(q, g)`. -/
theorem addUnit_apply (v : FVec Ideal S2048x4 .f32) (h : S2048x4.ShapeCasts S2048x4x1) (q : Fin 2048) (g : Fin 4) (z : Fin 1) :
    shapeCast S2048x4x1 v h (ix3 q g z) = v (ix2 q g) :=
  shapeCast_apply v h (ix3 q g z) (ix2 q g) (by
    rw [Shape.rowMajor_val_two, Shape.rowMajor_val_three]
    show q.val * 4 + g.val = (q.val * 4 + g.val) * 1 + z.val
    have := z.isLt; omega)

/-- A group's value repeated over its 128 features. -/
theorem overLanes_apply (y : FVec Ideal S2048x4x1 .f32) (h : S2048x4x1.Broadcasts S2048x4x128) (q : Fin 2048) (g : Fin 4) (l : Fin 128) :
    broadcastTo S2048x4x128 y h (ix3 q g l) = y (ix3 q g (0 : Fin 1)) :=
  broadcastTo_apply y h (ix3 q g l) (ix3 q g (0 : Fin 1)) (fun a => match a with
    | ⟨0, _⟩ => by show q.val = if (2048 : Nat) = 1 then 0 else q.val; rw [if_neg (by decide)]
    | ⟨1, _⟩ => by show g.val = if (4 : Nat) = 1 then 0 else g.val; rw [if_neg (by decide)]
    | ⟨2, _⟩ => by show 0 = if (1 : Nat) = 1 then 0 else l.val; rw [if_pos rfl])

/-- The 512 features of a row regrouped as four groups of 128: entry `(q, g, l)` is feature `128 g + l`. -/
theorem regroup_apply (v : FVec Ideal S2048x512 .f32) (h : S2048x512.ShapeCasts S2048x4x128) (q : Fin 2048) (g : Fin 4) (l : Fin 128)
    (k : Fin 512) (hk : k.val = 128 * g.val + l.val) :
    shapeCast S2048x4x128 v h (ix3 q g l) = v (ix2 q k) :=
  shapeCast_apply v h (ix3 q g l) (ix2 q k) (by
    rw [Shape.rowMajor_val_two, Shape.rowMajor_val_three]
    show q.val * 512 + k.val = (q.val * 4 + g.val) * 128 + l.val
    omega)

/-- Four groups of 128 laid out again as 512 features: feature `k` is entry `(q, k / 128, k % 128)`. -/
theorem ungroup_apply (y : FVec Ideal S2048x4x128 .f32) (h : S2048x4x128.ShapeCasts S2048x512) (q : Fin 2048) (k : Fin 512) :
    shapeCast S2048x512 y h (ix2 q k) = y (ix3 q (grp4 k) (lane k)) :=
  shapeCast_apply y h (ix2 q k) (ix3 q (grp4 k) (lane k)) (by
    rw [Shape.rowMajor_val_two, Shape.rowMajor_val_three]
    show (q.val * 4 + k.val / 128) * 128 + k.val % 128 = q.val * 512 + k.val
    omega)

/-- A row's scale repeated over the block's 512 features. -/
theorem overFeatures_apply (v : FVec Ideal S2048x1 .f32) (h : S2048x1.Broadcasts S2048x512) (p : Fin 2048) (k : Fin 512) :
    broadcastTo S2048x512 v h (ix2 p k) = v (ix2 p (0 : Fin 1)) :=
  broadcastTo_apply v h (ix2 p k) (ix2 p (0 : Fin 1)) (fun a => match a with
    | ⟨0, _⟩ => by show p.val = if (2048 : Nat) = 1 then 0 else p.val; rw [if_neg (by decide)]
    | ⟨1, _⟩ => by show 0 = if (1 : Nat) = 1 then 0 else k.val; rw [if_pos rfl])

/-- The transposed block at `(k, q)` is the block at `(q, k)`. -/
theorem swap_apply {φ : FTy} (y : FVec Ideal S2048x512 φ) (h : S2048x512.Transposes [1, 0] S512x2048) (k : Fin 512) (q : Fin 2048) :
    transpose S512x2048 [1, 0] y h (ix2 k q) = y (ix2 q k) :=
  transpose_apply [1, 0] y h (ix2 k q) (ix2 q k) (fun b => match b with
    | ⟨0, _⟩ => rfl
    | ⟨1, _⟩ => rfl)

/-! ## The matrix product at an entry -/

theorem lhs_axis0 (i : S2048x2048.Idx) (q : dot_S2048x512_S512x2048_S2048x2048_1_0_0_1_n_n.contr.Idx) :
    (dot_S2048x512_S512x2048_S2048x2048_1_0_0_1_n_n.lhsIdx i q 0).val = (i 0).val := by
  unfold DotDims.lhsIdx
  rw [dif_neg (show ¬(0 : Fin S2048x512.rank) ∈ dot_S2048x512_S512x2048_S2048x2048_1_0_0_1_n_n.lhsBatch by decide), dif_pos (show (0 : Fin S2048x512.rank) ∈ dot_S2048x512_S512x2048_S2048x2048_1_0_0_1_n_n.lhsNonContracting by decide)]
  rfl
theorem lhs_axis1 (i : S2048x2048.Idx) (q : dot_S2048x512_S512x2048_S2048x2048_1_0_0_1_n_n.contr.Idx) :
    (dot_S2048x512_S512x2048_S2048x2048_1_0_0_1_n_n.lhsIdx i q 1).val = (q ⟨0, by decide⟩).val :=
  dot_S2048x512_S512x2048_S2048x2048_1_0_0_1_n_n.lhsIdx_val_of_single rfl i q
theorem rhs_axis0 (i : S2048x2048.Idx) (q : dot_S2048x512_S512x2048_S2048x2048_1_0_0_1_n_n.contr.Idx) :
    (dot_S2048x512_S512x2048_S2048x2048_1_0_0_1_n_n.rhsIdx i q 0).val = (q ⟨0, by decide⟩).val :=
  dot_S2048x512_S512x2048_S2048x2048_1_0_0_1_n_n.rhsIdx_val_of_single rfl i q
theorem rhs_axis1 (i : S2048x2048.Idx) (q : dot_S2048x512_S512x2048_S2048x2048_1_0_0_1_n_n.contr.Idx) :
    (dot_S2048x512_S512x2048_S2048x2048_1_0_0_1_n_n.rhsIdx i q 1).val = (i 1).val := by
  unfold DotDims.rhsIdx
  rw [dif_neg (show ¬(1 : Fin S512x2048.rank) ∈ dot_S2048x512_S512x2048_S2048x2048_1_0_0_1_n_n.rhsBatch by decide), dif_pos (show (1 : Fin S512x2048.rank) ∈ dot_S2048x512_S512x2048_S2048x2048_1_0_0_1_n_n.rhsNonContracting by decide)]
  rfl

/-- The product of a `[2048, 512]` by a `[512, 2048]` block into a zero accumulator, at entry `(p, q)`: the sum over the
    512 contracted positions. -/
theorem product_apply {φ₁ φ₂ : FTy} (l : FVec Ideal S2048x512 φ₁) (r : FVec Ideal S512x2048 φ₂) (p q : Fin 2048) :
    matmul dot_S2048x512_S512x2048_S2048x2048_1_0_0_1_n_n none l r (constant S2048x2048 .f32 0x00000000#32) (ix2 p q)
      = ∑ k : Fin 512, l (ix2 p k) * r (ix2 k q) := by
  simp only [matmul]
  rw [Ideal.matmul_constant_zero_apply, ← Equiv.sum_comp (ValueIdx.contrEquiv1 dot_S2048x512_S512x2048_S2048x2048_1_0_0_1_n_n 512 rfl rfl).symm]
  refine Finset.sum_congr rfl fun k _ => ?_
  have hk := ValueIdx.contrEquiv1_symm_val dot_S2048x512_S512x2048_S2048x2048_1_0_0_1_n_n 512 rfl rfl k
  have el : dot_S2048x512_S512x2048_S2048x2048_1_0_0_1_n_n.lhsIdx (ix2 p q) ((ValueIdx.contrEquiv1 dot_S2048x512_S512x2048_S2048x2048_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S2048x512_S512x2048_S2048x2048_1_0_0_1_n_n.rhsIdx (ix2 p q) ((ValueIdx.contrEquiv1 dot_S2048x512_S512x2048_S2048x2048_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-! ## The dequantized operands and the body's term at an entry -/

/-- The dequantized weight block at `(q, k)`: the weight less its group's offset, times its group's scale. -/
theorem weight_apply (v6 v9 : FVec Ideal S2048x4 .f32) (v11 : FVec Ideal S2048x512 .f32)
    (h2 : S2048x512.ShapeCasts S2048x4x128) (h4 : S2048x4.ShapeCasts S2048x4x1) (h5 : S2048x4x1.Broadcasts S2048x4x128)
    (h6 : S2048x4x128.ShapeCasts S2048x512) (q : Fin 2048) (k : Fin 512) :
    shapeCast S2048x512 (mulf (subf (shapeCast S2048x4x128 v11 h2) (broadcastTo S2048x4x128 (shapeCast S2048x4x1 v9 h4) h5))
        (broadcastTo S2048x4x128 (shapeCast S2048x4x1 v6 h4) h5)) h6 (ix2 q k)
      = (v11 (ix2 q k) - v9 (ix2 q (grp4 k))) * v6 (ix2 q (grp4 k)) := by
  rw [ungroup_apply, mulf_apply, subf_apply,
    regroup_apply v11 h2 q (grp4 k) (lane k) k (by show k.val = 128 * (k.val / 128) + k.val % 128; omega),
    overLanes_apply, overLanes_apply, addUnit_apply, addUnit_apply]

/-- The tile of zeros the first feature block stores. -/
theorem pay1_apply (j : S2048x2048.Idx) : k0_pay1 (F := Ideal) j = 0 := by
  show Ideal.ofBits .f32 0x00000000#32 = 0
  exact Ideal.ofBits_zero_f32

/-- The body's term at entry `(p, q)` of the tile: the tile's previous entry plus the block's 512 products. -/
theorem pay2_apply (v6 v9 : Vec Ideal S2048x4 .f32) (v11 v21 : Vec Ideal S2048x512 .f32) (v22 : Vec Ideal S2048x1 .f32)
    (v29 : Vec Ideal S2048x2048 .f32) (p q : Fin 2048) :
    k0_pay2 (F := Ideal) v6 v9 v11 v21 v22 v29 (ix2 p q)
      = v29 (ix2 p q) + ∑ k : Fin 512, (v21 (ix2 p k) * v22 (ix2 p (0 : Fin 1)))
          * ((v11 (ix2 q k) - v9 (ix2 q (grp4 k))) * v6 (ix2 q (grp4 k))) := by
  unfold k0_pay2
  dsimp only
  simp only [shapeCast_self]
  rw [addf_apply, product_apply]
  refine congrArg (v29 (ix2 p q) + ·) (Finset.sum_congr rfl fun k _ => ?_)
  rw [truncf_apply, mulf_apply, overFeatures_apply, swap_apply, truncf_apply, weight_apply]

end Cert.KernelIdeal.PayloadAt

end
-- ==== Proof.Accum.lean ====
/-
  The output tile, point by point: the running sum over the feature blocks.

  The eight points that share an output tile visit the feature blocks in order. The first stores `0 + (its block's
  products)`; each later one adds its own block's products to what the point before left. So after the last of the
  eight the tile's entry `(p, q)` is `0` plus the eight partial sums, which together are the sum over all 4096
  features: the dequantized matrix product at token row `2048 · (t / 48) + p` and weight row `2048 · ((t / 8) % 6) + q`.
-/
import proofs.«132752_j76407468195936_1_alg».proof.Proof.Blocks
import proofs.«132752_j76407468195936_1_alg».proof.Proof.PayloadAt
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Blocks Idealize.ShloMosaic.ValueIdx

variable (m : (ℓ : Loc nD τ sig) → Buf (Elt Ideal) ℓ)

/-- The body's term at point `n` over that point's blocks, as a function of the tile's previous contents. -/
def stepAt (c : Dev nD) (n : Nat) (h : n < cfg0.N) (acc : Vec Ideal S2048x2048 .f32) : Vec Ideal S2048x2048 .f32 :=
  k0_pay2 (F := Ideal) (Pieces.groupCols (grid0.coords ⟨n, h⟩) (wsblk m c ⟨n, h⟩)) (Pieces.groupCols (grid0.coords ⟨n, h⟩) (woblk m c ⟨n, h⟩))
    (wblk m c ⟨n, h⟩) (xblk m c ⟨n, h⟩) (sxblk m c ⟨n, h⟩) acc

/-- The partial sum point `n` contributes to entry `i` of its tile: the products over the point's 512 features. -/
def addend (c : Dev nD) (n : Nat) (i : S2048x2048.Idx) : EReal :=
  ∑ k : Fin 512, QDot.term (X m c) (SX m c) (WP m c) (WS m c) (WO m c) (rowOf n (i 0)) (colOf n (i 1)) (QDot.feat n k)

/-- One point's step at an entry: the previous entry plus the point's partial sum. -/
theorem stepAt_apply (c : Dev nD) (n : Nat) (h : n < cfg0.N) (acc : Vec Ideal S2048x2048 .f32) (i : S2048x2048.Idx) :
    stepAt m c n h acc i = acc i + addend m c n i := by
  obtain ⟨p, q, rfl⟩ : ∃ (p q : Fin 2048), i = ix2 p q := ⟨i 0, i 1, eq_ix2 i⟩
  unfold stepAt
  refine (PayloadAt.pay2_apply (Pieces.groupCols (grid0.coords ⟨n, h⟩) (wsblk m c ⟨n, h⟩)) (Pieces.groupCols (grid0.coords ⟨n, h⟩) (woblk m c ⟨n, h⟩))
    (wblk m c ⟨n, h⟩) (xblk m c ⟨n, h⟩) (sxblk m c ⟨n, h⟩) acc p q).trans ?_
  refine congrArg (acc (ix2 p q) + ·) (Finset.sum_congr rfl fun k _ => ?_)
  rw [xblk_apply, sxblk_apply, wblk_apply, groupCols_apply, groupCols_apply, wsblk_apply, woblk_apply]
  have hg : grpOf n (PayloadAt.grp4 k) = QDot.grp (QDot.feat n k) := Fin.ext (by
    show 4 * (n % 8) + k.val / 128 = (512 * (n % 8) + k.val) / 128
    have := k.isLt; omega)
  rw [hg]
  rfl

/-- At the first of a tile's eight points the tile ends at the step over the zero tile. -/
theorem outs_reset (c : Dev nD) (n : Nat) (h : n < cfg0.N) (h0 : n % 8 = 0) :
    outsAt0 m c n h = stepAt m c n h (k0_pay1 (F := Ideal)) :=
  (outsAt0_A m c ⟨n, h⟩ h0).trans
    (Pieces.out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0)
      (iblk m c 0 ⟨n, h⟩) (iblk m c 1 ⟨n, h⟩) (iblk m c 2 ⟨n, h⟩) (iblk m c 3 ⟨n, h⟩) (iblk m c 4 ⟨n, h⟩))

/-- At each later point it ends at the step over what the point before left. -/
theorem outs_step (c : Dev nD) (n : Nat) (h : n + 1 < cfg0.N) (hne : ¬(n + 1) % 8 = 0) :
    outsAt0 m c (n + 1) h = stepAt m c (n + 1) h (outsAt0 m c n (Nat.lt_of_succ_lt h)) :=
  (outsAt0_B m c ⟨n + 1, h⟩ hne).trans
    (Pieces.out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hne ((hcond0_0 ⟨n + 1, h⟩).mp hh))
      (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)))

/-- The eight partial sums of a tile's run of points add up to the sum over all features. -/
theorem sum_addends (c : Dev nD) (t : Nat) (p q : Fin 2048) :
    ∑ s ∈ Finset.range 8, addend m c (8 * (t / 8) + s) (ix2 p q)
      = QDot.dot (X m c) (SX m c) (WP m c) (WS m c) (WO m c) (rowOf t p) (colOf t q) := by
  unfold QDot.dot
  rw [← QDot.sum_blocks (fun i => QDot.term (X m c) (SX m c) (WP m c) (WS m c) (WO m c) (rowOf t p) (colOf t q) i)]
  refine Finset.sum_congr rfl fun s hs => ?_
  have hs8 : s < 8 := Finset.mem_range.mp hs
  unfold addend
  refine Finset.sum_congr rfl fun k _ => ?_
  have hr : rowOf (8 * (t / 8) + s) ((ix2 p q : S2048x2048.Idx) 0) = rowOf t p := Fin.ext (by
    show 2048 * (((8 * (t / 8) + s) / 48) % 4) + p.val = 2048 * ((t / 48) % 4) + p.val
    omega)
  have hc : colOf (8 * (t / 8) + s) ((ix2 p q : S2048x2048.Idx) 1) = colOf t q := Fin.ext (by
    show 2048 * (((8 * (t / 8) + s) / 8) % 6) + q.val = 2048 * ((t / 8) % 6) + q.val
    omega)
  have hf : QDot.feat (8 * (t / 8) + s) k = QDot.feat s k := Fin.ext (by
    show 512 * ((8 * (t / 8) + s) % 8) + k.val = 512 * (s % 8) + k.val
    omega)
  rw [hr, hc, hf]

/-- After the last of a tile's eight points, entry `(p, q)` of the tile is the dequantized matrix product at the token
    row and weight row under it. -/
theorem outs_last (c : Dev nD) (t : Fin cfg0.N) (h7 : t.val % 8 = 7) (p q : Fin 2048) :
    outsAt0 m c t.val t.isLt (ix2 p q)
      = QDot.dot (X m c) (SX m c) (WP m c) (WS m c) (WO m c) (rowOf t.val p) (colOf t.val q) := by
  have hN : cfg0.N = 192 := N_0
  have hb : 8 * (t.val / 8) + t.val % 8 < cfg0.N := by have := t.isLt; omega
  rw [Pipeline.eq_accAt_of_mod (outsAt0 m c) 8 (fun n h => stepAt m c n h (k0_pay1 (F := Ideal))) (stepAt m c)
    (fun n h h0 => outs_reset m c n h h0) (fun n h hne => outs_step m c n h hne) (by decide) t.val t.isLt hb]
  rw [Pipeline.accAt_add_apply (fun n h => stepAt m c n h (k0_pay1 (F := Ideal))) (stepAt m c) (fun _ => (0 : EReal)) (addend m c)
    (8 * (t.val / 8)) 7
    (fun h i => (stepAt_apply m c _ h _ i).trans (congrArg (· + addend m c _ i) (PayloadAt.pay1_apply i)))
    (fun n h acc i _ _ => stepAt_apply m c n h acc i)
    (t.val % 8) (by omega) hb (ix2 p q)]
  rw [h7, zero_add]
  exact sum_addends m c t.val p q

end Cert.KernelIdeal.Accum

end
-- ==== Proof.OutArray.lean ====
/-
  The kernel's output array after the run.

  The output tile of token-row tile `a` and weight-row tile `b` is written back once, after the last of its eight
  points, and then holds the dequantized matrix product at every entry. The 4 × 6 tiles of 2048 × 2048 entries tile
  the whole `[8192, 12288]` array, so the array ends holding the product everywhere.
-/
import proofs.«132752_j76407468195936_1_alg».proof.Proof.Accum
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.OutArray

open Cert.KernelIdeal Cert.KernelIdeal.Gen Cert.KernelIdeal.Blocks Idealize.ShloMosaic.ValueIdx

variable (m : (ℓ : Loc nD τ sig) → Buf (Elt Ideal) ℓ)

/-- The dequantized matrix product of the activations and the zero-padded weight, entry by entry. -/
abbrev padded (c : Dev nD) : FVec Ideal S8192x12288 .f32 :=
  fun i => QDot.dot (X m c) (SX m c) (WP m c) (WS m c) (WO m c) (i 0) (i 1)

/-- What a point that writes the tile back writes is its tile of the padded product. -/
theorem flushed_eq (c : Dev nD) (t : Fin cfg0.N) (hf : (cfg0.win 5).flush t = true) :
    (dats m 0 c).flushed 5 t = ((cfg0.win 5).blk t).view.read (Elt Ideal) (padded m c) := by
  have h7 : t.val % 8 = 7 := (flush0_5 t).mp hf
  obtain ⟨-, -, -, -, -, -, -, -, -, -, e0, e1, -⟩ := idx_facts t
  show (cfg0.win 5).cut (grid0.coords t) ((dats m 0 c).after 5 t) = _
  rw [after0_5]
  refine funext fun (j : S2048x2048.Idx) => ?_
  obtain ⟨p, q, rfl⟩ : ∃ (p q : Fin 2048), j = ix2 p q := ⟨j 0, j 1, eq_ix2 j⟩
  show outsAt0 m c t.val t.isLt (ix2 p q) = padded m c (((cfg0.win 5).blk t).view.emb (ix2 p q))
  rw [Accum.outs_last m c t h7 p q]
  show QDot.dot (X m c) (SX m c) (WP m c) (WS m c) (WO m c) (rowOf t.val p) (colOf t.val q)
    = QDot.dot (X m c) (SX m c) (WP m c) (WS m c) (WO m c) ((((cfg0.win 5).blk t).view.emb (ix2 p q)) 0) ((((cfg0.win 5).blk t).view.emb (ix2 p q)) 1)
  congr 1
  · apply Fin.ext
    show 2048 * ((t.val / 48) % 4) + p.val = win0_5.index t (0 : Fin 2) * 2048 + 1 * p.val
    omega
  · apply Fin.ext
    show 2048 * ((t.val / 8) % 6) + q.val = win0_5.index t (1 : Fin 2) * 2048 + 1 * q.val
    omega

/-- Every entry of the array lies in the tile some writing-back point writes. -/
theorem cover (c : Dev nD) (i : S8192x12288.Idx) :
    ∃ t : Fin cfg0.N, (cfg0.win 5).flush t = true ∧ i ∈ ((cfg0.win 5).blk t).view.set := by
  have hN : cfg0.N = 192 := N_0
  have h0 : (i 0).val < 8192 := (i 0).isLt
  have h1 : (i 1).val < 12288 := (i 1).isLt
  obtain ⟨t, ht⟩ : ∃ t : Fin cfg0.N, t.val = 48 * ((i 0).val / 2048) + 8 * ((i 1).val / 2048) + 7 :=
    ⟨⟨48 * ((i 0).val / 2048) + 8 * ((i 1).val / 2048) + 7, by omega⟩, rfl⟩
  obtain ⟨-, -, -, -, -, -, -, -, -, -, e0, e1, -⟩ := idx_facts t
  refine ⟨t, (flush0_5 t).mpr (by omega), ?_⟩
  show i ∈ ((View.whole main_v3).slice (win0_5.rect t)).set
  rw [View.set_slice_whole, Rect.mem_set_unit]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 2048 ≤ (i 1).val ∧ (i 1).val < win0_5.index t (1 : Fin 2) * 2048 + 2048
    omega

/-- The output array after the run is the padded product. -/
theorem final (c : Dev nD) : (dats m 0 c).arrAt 5 cfg0.N = padded m c :=
  (dats m 0 c).arrAt_eq_of_cover 5 (padded m c) (flushed_eq m c) (cover c)

end Cert.KernelIdeal.OutArray

end
-- ==== Proof.HostSides.lean ====
/-
  The host operations around the kernel, and the kernel program's result.

  Before the region the weight, its scales and its offsets get 1280 rows of zeros appended; a row below 11008 of a
  padded array is the row of the argument. After the region the first 11008 columns of the `[8192, 12288]` product are
  kept. So the program's result at `(r, o)` is the dequantized matrix product of the ARGUMENTS at token row `r` and
  weight row `o`: the appended rows only feed the columns that are dropped.
-/
import proofs.«132752_j76407468195936_1_alg».proof.Proof.Gen.KernelIdeal.Frame
import proofs.«132752_j76407468195936_1_alg».proof.Proof.OutArray
import Idealize.ShloMosaic.Lib.Pipeline.Value
import Idealize.ShloMosaic.Lib.StableHlo.Run
import Idealize.ShloMosaic.Lib.KernelVsHost
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HostSides

open Cert.KernelIdeal Cert.KernelIdeal.Gen Cert.KernelIdeal.Blocks Idealize.ShloMosaic.ValueIdx

variable (m : (ℓ : Loc nD τ sig) → Buf (Elt Ideal) ℓ)

/-- Weight row `o` of the argument, as a row of the padded arrays. -/
def lift (o : Fin 11008) : Fin 12288 := ⟨o.val, by have := o.isLt; omega⟩

/-! ## The arrays the region finds are the arguments, padded -/

theorem X_eq (c : Dev nD) : X m c = m ((c : Thread nD τ).loc main_arg0) := V_main_arg0 m c
theorem SX_eq (c : Dev nD) : SX m c = m ((c : Thread nD τ).loc main_arg1) := V_main_arg1 m c

theorem WP_eq (c : Dev nD) : WP m c = pad S12288x4096 ![0, 0] ![1280, 0] ![0, 0] (m ((c : Thread nD τ).loc main_arg2))
    (sitofp (F := Ideal) .f32 (constantI S_ 32 0#32)) pads_S11008x4096_S12288x4096_012800_000 h_S_ := by
  show V m c main_v0 = _
  dsimp only [V, V0]
  simp only [hostOps0, hostOps0_1, hostOps0_2, hostOps0_3, hostOps0_4, hostOps0_5, List.flatten_cons, List.flatten_nil, List.append_nil, List.cons_append, List.nil_append]
  after_results
  rfl

theorem WS_eq (c : Dev nD) : WS m c = pad S12288x32 ![0, 0] ![1280, 0] ![0, 0] (m ((c : Thread nD τ).loc main_arg3))
    (sitofp (F := Ideal) .f32 (constantI S_ 32 0#32)) pads_S11008x32_S12288x32_012800_000 h_S_ := by
  show V m c main_v1 = _
  dsimp only [V, V0]
  simp only [hostOps0, hostOps0_1, hostOps0_2, hostOps0_3, hostOps0_4, hostOps0_5, List.flatten_cons, List.flatten_nil, List.append_nil, List.cons_append, List.nil_append]
  after_results
  rfl

theorem WO_eq (c : Dev nD) : WO m c = pad S12288x32 ![0, 0] ![1280, 0] ![0, 0] (m ((c : Thread nD τ).loc main_arg4))
    (sitofp (F := Ideal) .f32 (constantI S_ 32 0#32)) pads_S11008x32_S12288x32_012800_000 h_S_ := by
  show V m c main_v2 = _
  dsimp only [V, V0]
  simp only [hostOps0, hostOps0_1, hostOps0_2, hostOps0_3, hostOps0_4, hostOps0_5, List.flatten_cons, List.flatten_nil, List.append_nil, List.cons_append, List.nil_append]
  after_results
  rfl

/-- A row below 11008 of the padded weight is the argument's row. -/
theorem WP_lift (c : Dev nD) (o : Fin 11008) (i : Fin 4096) :
    WP m c (ix2 (lift o) i) = (m ((c : Thread nD τ).loc main_arg2) : FVec Ideal S11008x4096 .f32) (ix2 o i) := by
  rw [WP_eq]
  exact pad_apply_of_inside _ _ _ _ _ _ _ (ix2 (lift o) i) (ix2 o i) (fun a => match a with
    | ⟨0, _⟩ => by show o.val = 0 + o.val * (0 + 1); omega
    | ⟨1, _⟩ => by show i.val = 0 + i.val * (0 + 1); omega)

theorem WS_lift (c : Dev nD) (o : Fin 11008) (g : Fin 32) :
    WS m c (ix2 (lift o) g) = (m ((c : Thread nD τ).loc main_arg3) : FVec Ideal S11008x32 .f32) (ix2 o g) := by
  rw [WS_eq]
  exact pad_apply_of_inside _ _ _ _ _ _ _ (ix2 (lift o) g) (ix2 o g) (fun a => match a with
    | ⟨0, _⟩ => by show o.val = 0 + o.val * (0 + 1); omega
    | ⟨1, _⟩ => by show g.val = 0 + g.val * (0 + 1); omega)

theorem WO_lift (c : Dev nD) (o : Fin 11008) (g : Fin 32) :
    WO m c (ix2 (lift o) g) = (m ((c : Thread nD τ).loc main_arg4) : FVec Ideal S11008x32 .f32) (ix2 o g) := by
  rw [WO_eq]
  exact pad_apply_of_inside _ _ _ _ _ _ _ (ix2 (lift o) g) (ix2 o g) (fun a => match a with
    | ⟨0, _⟩ => by show o.val = 0 + o.val * (0 + 1); omega
    | ⟨1, _⟩ => by show g.val = 0 + g.val * (0 + 1); omega)

/-! ## The result -/

/-- The dequantized matrix product of the ARGUMENTS, entry by entry: what both programs return. -/
abbrev product (c : Dev nD) : FVec Ideal S8192x11008 .f32 :=
  fun j => QDot.dot (R := 11008) (m ((c : Thread nD τ).loc main_arg0)) (m ((c : Thread nD τ).loc main_arg1))
    (m ((c : Thread nD τ).loc main_arg2)) (m ((c : Thread nD τ).loc main_arg3)) (m ((c : Thread nD τ).loc main_arg4)) (j 0) (j 1)

/-- The first 11008 columns of the padded product are the product of the arguments. -/
theorem slice_padded (c : Dev nD) :
    extractStridedSlice S8192x11008 ![0, 0] (OutArray.padded m c) slices_S8192x12288_S8192x11008_0_0 = product m c := by
  funext j
  obtain ⟨r, o, rfl⟩ : ∃ (r : Fin 8192) (o : Fin 11008), j = ix2 r o := ⟨j 0, j 1, eq_ix2 j⟩
  refine (extractStridedSlice_apply _ _ _ (ix2 r o) (ix2 r (lift o)) (fun a => match a with
    | ⟨0, _⟩ => by show r.val = 0 + r.val; omega
    | ⟨1, _⟩ => by show o.val = 0 + o.val; omega)).trans ?_
  show QDot.dot (X m c) (SX m c) (WP m c) (WS m c) (WO m c) r (lift o) = QDot.dot _ _ _ _ _ r o
  unfold QDot.dot
  refine Finset.sum_congr rfl fun i _ => ?_
  unfold QDot.term
  rw [WP_lift, WS_lift, WO_lift, X_eq, SX_eq]

/-- What the host operation after the region leaves in the result buffer. -/
theorem tail_eq (c : Dev nD) :
    Pipeline.afterTail₀ cfgs (dats m) 0 (V0 m) [hostOps1] c main_v4 = product m c := by
  unfold Pipeline.afterTail₀
  show StableHlo.after hostOps1 _ (Proc.devRef .tc main_v4) = _
  after_results
  refine Eq.trans ?_ (slice_padded m c)
  exact congrArg (fun y => extractStridedSlice S8192x11008 ![0, 0] y slices_S8192x12288_S8192x11008_0_0)
    ((Pipeline.withArrays_arr spec0 launch0.win.arr_inj c (V0 m c) (fun w => (dats m 0 c).arrAt w (cfgs 0).N) 5).trans (OutArray.final m c))

/-- The kernel program's run: it ends with the result at the product of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = product m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostSides

end
-- ==== Proof.RefSide.lean ====
/-
  The reference computes the specification.

  Read at entry `(r, o)`, the reference's last stage is the sum over the 4096 features `i` of the dequantized
  activation `x r i · sx r` times the dequantized weight `(w o i − off o (i / 128)) · scale o (i / 128)`: its
  `dot_general` is the plain sum of products over the contracted axis, its two reshapes regroup a weight row's 4096
  features into 32 groups of 128 and back, and its broadcasts repeat a group's offset and scale over the group.
-/
import proofs.«132752_j76407468195936_1_alg».proof.Proof.Gen.ReferenceIdeal.Run
import proofs.«132752_j76407468195936_1_alg».proof.Proof.Gen.ReferenceIdeal.Read
import proofs.«132752_j76407468195936_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- The place of feature `i` inside its group of 128. -/
def laneOf (i : Fin 4096) : Fin 128 := ⟨i.val % 128, Nat.mod_lt _ (by decide)⟩

/-! ## The composed index functions of the read-back stages, at coordinates -/

theorem lhs_at (r : Fin 8192) (o : Fin 11008) (i : Fin 4096) : lidx_main_v10 (ix2 r o) i = ix2 r i :=
  funext fun a => Fin.ext (by match a with | ⟨0, _⟩ => rfl | ⟨1, _⟩ => rfl)
theorem rhs_at (r : Fin 8192) (o : Fin 11008) (i : Fin 4096) : ridx_main_v10 (ix2 r o) i = ix2 o i :=
  funext fun a => Fin.ext (by match a with | ⟨0, _⟩ => rfl | ⟨1, _⟩ => rfl)
theorem rowScale_at (r : Fin 8192) (i : Fin 4096) : idx_main_v0 (ix2 r i) = ix2 r (0 : Fin 1) :=
  funext fun a => Fin.ext (by match a with | ⟨0, _⟩ => rfl | ⟨1, _⟩ => rfl)
theorem ungroup_at (o : Fin 11008) (i : Fin 4096) : idx_main_v9 (ix2 o i) = ix3 o (QDot.grp i) (laneOf i) :=
  funext fun a => Fin.ext (by
    have ho := o.isLt; have hi := i.isLt
    match a with
    | ⟨0, _⟩ => show (o.val * 4096 + i.val) / 4096 = o.val; omega
    | ⟨1, _⟩ => show (o.val * 4096 + i.val) / 128 % 32 = i.val / 128; omega
    | ⟨2, _⟩ => show (o.val * 4096 + i.val) % 128 = i.val % 128; omega)
theorem regroup_at (o : Fin 11008) (i : Fin 4096) : idx_main_v2 (ix3 o (QDot.grp i) (laneOf i)) = ix2 o i :=
  funext fun a => Fin.ext (by
    have ho := o.isLt; have hi := i.isLt
    match a with
    | ⟨0, _⟩ => show ((o.val * 32 + i.val / 128) * 128 + i.val % 128) / 4096 = o.val; omega
    | ⟨1, _⟩ => show ((o.val * 32 + i.val / 128) * 128 + i.val % 128) % 4096 = i.val; omega)
theorem offLanes_at (o : Fin 11008) (g : Fin 32) (l : Fin 128) : idx_main_v4 (ix3 o g l) = ix3 o g (0 : Fin 1) :=
  funext fun a => Fin.ext (by match a with | ⟨0, _⟩ => rfl | ⟨1, _⟩ => rfl | ⟨2, _⟩ => rfl)
theorem offUnit_at (o : Fin 11008) (g : Fin 32) (z : Fin 1) : idx_main_v3 (ix3 o g z) = ix2 o g :=
  funext fun a => Fin.ext (by match a with | ⟨0, _⟩ => rfl | ⟨1, _⟩ => rfl)
theorem scaleLanes_at (o : Fin 11008) (g : Fin 32) (l : Fin 128) : idx_main_v7 (ix3 o g l) = ix3 o g (0 : Fin 1) :=
  funext fun a => Fin.ext (by match a with | ⟨0, _⟩ => rfl | ⟨1, _⟩ => rfl | ⟨2, _⟩ => rfl)
theorem scaleUnit_at (o : Fin 11008) (g : Fin 32) (z : Fin 1) : idx_main_v6 (ix3 o g z) = ix2 o g :=
  funext fun a => Fin.ext (by match a with | ⟨0, _⟩ => rfl | ⟨1, _⟩ => rfl)

/-! ## The reference's result at an entry -/

/-- The reference's result at `(r, o)` is the dequantized matrix product there. -/
theorem result_apply (x0 : FVec Ideal S8192x4096 .f32) (x1 : FVec Ideal S8192x1 .f32) (x2 : FVec Ideal S11008x4096 .f32)
    (x3 x4 : FVec Ideal S11008x32 .f32) (r : Fin 8192) (o : Fin 11008) :
    val_main_v10 (F := Ideal) x0 x1 x2 x3 x4 (ix2 r o) = QDot.dot x0 x1 x2 x3 x4 r o := by
  rw [val_main_v10_apply]
  unfold QDot.dot
  refine Finset.sum_congr rfl fun i _ => ?_
  rw [lhs_at, rhs_at, val_main_v1_apply, val_main_v0_apply, rowScale_at, val_main_v9_apply, ungroup_at, val_main_v8_apply,
    val_main_v5_apply, val_main_v2_apply, regroup_at, val_main_v4_apply, offLanes_at, val_main_v3_apply, offUnit_at,
    val_main_v7_apply, scaleLanes_at, val_main_v6_apply, scaleUnit_at]
  rfl

/-- The reference's result as one function of the arguments. -/
theorem result_eq (x0 : FVec Ideal S8192x4096 .f32) (x1 : FVec Ideal S8192x1 .f32) (x2 : FVec Ideal S11008x4096 .f32)
    (x3 x4 : FVec Ideal S11008x32 .f32) :
    val_main_v10 (F := Ideal) x0 x1 x2 x3 x4 = fun j => QDot.dot x0 x1 x2 x3 x4 (j 0) (j 1) := by
  funext j
  obtain ⟨r, o, rfl⟩ : ∃ (r : Fin 8192) (o : Fin 11008), j = ix2 r o := ⟨j 0, j 1, eq_ix2 j⟩
  exact result_apply x0 x1 x2 x3 x4 r o

end Cert.ReferenceIdeal.RefValue

end
-- ==== Proof.lean ====
/-
  The certificate of a quantized linear layer: activations dequantized by a per-row scale, a weight dequantized group
  by group (128 features a group, an offset and a scale per group), and their matrix product.

  The kernel tiles the product 2048 × 2048, walks the 4096 features in eight blocks of 512 and accumulates the blocks'
  partial products in the output tile; the weight is zero-padded to a multiple of the tile and the extra columns are
  dropped afterwards. The reference dequantizes the whole operands and contracts once. Over the extended reals both
  return, at token row `r` and weight row `o`, the sum over all features of
  `(x r i · sx r) · ((w o i − off o (i / 128)) · scale o (i / 128))`: the eight partial sums regroup one sum, by
  commutativity and associativity of addition alone, and the changes of float format are the identity. The
  precondition is not used by the value claim.

  The three frames are the generated frame certificates (the reference's is its run with the result dropped);
  the idealization rewrote nothing, so `preserves` is trivial.
-/
import proofs.«132752_j76407468195936_1_alg».proof.Defs
import proofs.«132752_j76407468195936_1_alg».proof.Proof.Gen.Kernel
import proofs.«132752_j76407468195936_1_alg».proof.Proof.Gen.Kernel.Skeleton
import proofs.«132752_j76407468195936_1_alg».proof.Proof.Gen.Kernel.Launch
import proofs.«132752_j76407468195936_1_alg».proof.Proof.Gen.Kernel.Points
import proofs.«132752_j76407468195936_1_alg».proof.Proof.Gen.Kernel.Frame
import proofs.«132752_j76407468195936_1_alg».proof.Proof.Gen.KernelIdeal
import proofs.«132752_j76407468195936_1_alg».proof.Proof.Gen.KernelIdeal.Skeleton
import proofs.«132752_j76407468195936_1_alg».proof.Proof.Gen.KernelIdeal.Launch
import proofs.«132752_j76407468195936_1_alg».proof.Proof.Gen.KernelIdeal.Points
import proofs.«132752_j76407468195936_1_alg».proof.Proof.Gen.KernelIdeal.Frame
import proofs.«132752_j76407468195936_1_alg».proof.Proof.Gen.ReferenceIdeal
import proofs.«132752_j76407468195936_1_alg».proof.Proof.Gen.ReferenceIdeal.Run
import proofs.«132752_j76407468195936_1_alg».proof.Proof.Gen.ReferenceIdeal.Read
import proofs.«132752_j76407468195936_1_alg».proof.Proof.Gen.Pre_finite_inputs
import proofs.«132752_j76407468195936_1_alg».proof.Proof.HostSides
import proofs.«132752_j76407468195936_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the dequantized matrix product of the arguments: the kernel by its run read tile by tile
    and through the pads and the slice, the reference by its stages read at an entry. -/
theorem algebraic : Cert.algebraic_KernelIdeal_ReferenceIdeal := by
  intro m ρ m' ρ' _ hagree
  refine ⟨fun c => Cert.KernelIdeal.HostSides.product m c, Cert.KernelIdeal.HostSides.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
